-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S2048x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2048_S1x2048 : S2048.ShapeCasts S1x2048
  inb_S2048x2048_S2048x2048_0_0 : ∀ a, (![0, 0] : Fin 2 → Nat) a + S2048x2048.size a ≤ S2048x2048.size a
  h_S2048x2048 : 0 < S2048x2048.numel
  bitsLt_bf16_f32 : FTy.bits .bf16 < FTy.bits .f32
  shapeCasts_S2048x2048_S2048x2048 : S2048x2048.ShapeCasts S2048x2048
  packedbf16_S2048x2048_S2048x2048_0_0 : (Rect.unit (s := S2048x2048) ![0, 0] S2048x2048.size inb_S2048x2048_S2048x2048_0_0).PackedRows (EltTy.packing .bf16)
  inb_S256x2048_S256x2048_0_0 : ∀ a, (![0, 0] : Fin 2 → Nat) a + S256x2048.size a ≤ S256x2048.size a
  h_S256x2048 : 0 < S256x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S8192x2048.size a
  hwx0_3 : ∀ i : grid0.Coords, EltTy.bits .f32 = 32 ∨ (Rect.block (s := S8192x2048) S256x2048.size (cc0_transform_3 i) (hinb0_3 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.Pieces.lean ====
/-
  What one run of the kernel body leaves behind, as values of what it loaded — for either branch of its one
  conditional, on any staging buffers, at any float instance.

  The body has one conditional, taken at the first step of each core's sequence of grid points.  When taken
  (case A) it overwrites the whole scratch buffer with the weight block in the narrower format, and the matrix
  product that follows reads the scratch AFTER that store, so it sees the freshly stored copy.  When not taken
  (case B) the scratch keeps what the previous point left and the product reads that.  In both cases the body
  ends with ONE store covering the whole output block, whose value is the sum of the product and the broadcast
  bias row.  Each lemma below reads the single covering store back: a block written once through the zero
  offset is the stored value, and a whole buffer loaded at the zero offset is its contents.
-/
import proofs.«422237_j16844861735162_3_alg».proof.Proof.Gen.KernelIdeal.Value
import Idealize.ShloMosaic.Lib.Pipeline.Value
import Idealize.ShloMosaic.Lib.Tactic

noncomputable section

namespace Cert.KernelIdeal.Linear

open Cert.KernelIdeal Cert.KernelIdeal.Gen Idealize.ShloMosaic Idealize.ShloMosaic.TcCoe Idealize.SL.Sem
open Idealize.ShloMosaic.Tactic

variable {F : FTy → Type} [FloatOps F]

/-- Every load and store of the body starts at the origin of its buffer. -/
theorem origin : (![0, 0] : Fin 2 → Nat) = fun _ => 0 := funext fun a => by fin_cases a <;> rfl

/-! ## On any staging buffers -/

/-- Case A leaves in the scratch the narrowed copy of the weight block it loaded. -/
theorem scratch_A (c : Dev nD) (i : grid0.Coords) (arg2 : Memref sig .tc .vmem S256x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S2048x2048 .bf16) (harg6 : arg6.IsWhole) (hc0 : cond0_0 i)
    (x0 : Vec F S256x2048 .f32) (x1 : Vec F S2048x2048 .f32) (x2 : Vec F S1x2048 .f32) :
    sout0_A_0 c i arg2 harg2 arg3 harg3 arg4 harg4 arg5 harg5 arg6 harg6 hc0 x0 x1 x2 = k0_pay1 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero origin]
  simp only [View.readAt_eq_ld, harg3.read_unread, View.ld_unit_zero (S := S2048x2048) origin]

/-- Case A leaves in the output block the product of the x block with that fresh copy, plus the bias row. -/
theorem out_A (c : Dev nD) (i : grid0.Coords) (arg2 : Memref sig .tc .vmem S256x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S2048x2048 .bf16) (harg6 : arg6.IsWhole) (hc0 : cond0_0 i)
    (x0 : Vec F S256x2048 .f32) (x1 : Vec F S2048x2048 .f32) (x2 : Vec F S1x2048 .f32) :
    out0_A_3 c i arg2 harg2 arg3 harg3 arg4 harg4 arg5 harg5 arg6 harg6 hc0 x0 x1 x2 = k0_pay2 x0 (k0_pay1 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero origin]
  simp only [View.readAt_eq_ld, harg2.read_unread, harg3.read_unread, harg4.read_unread,
    View.ld_unit_zero (S := S256x2048) origin, View.ld_unit_zero (S := S2048x2048) origin,
    View.ld_unit_zero (S := S1x2048) origin, View.readCov_unit_zero (S := S2048x2048) _ origin]

/-- Case B leaves in the output block the product of the x block with the scratch as the previous point left it, plus
    the bias row. -/
theorem out_B (c : Dev nD) (i : grid0.Coords) (arg2 : Memref sig .tc .vmem S256x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S2048x2048 .bf16) (harg6 : arg6.IsWhole) (hc0 : ¬cond0_0 i)
    (x0 : Vec F S256x2048 .f32) (x1 : Vec F S2048x2048 .f32) (x2 : Vec F S1x2048 .f32) (xs0 : Vec F S2048x2048 .bf16) :
    out0_B_3 c i arg2 harg2 arg3 harg3 arg4 harg4 arg5 harg5 arg6 harg6 hc0 x0 x1 x2 xs0 = k0_pay2 x0 xs0 x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero origin]
  simp only [View.readAt_eq_ld, harg2.read_unread, harg4.read_unread, harg6.read_unread,
    View.ld_unit_zero (S := S256x2048) origin, View.ld_unit_zero (S := S2048x2048) origin,
    View.ld_unit_zero (S := S1x2048) origin]

/-! ## At a grid point -/

variable (m : (ℓ : Loc nD τ sig) → Buf (Elt F) ℓ)

/-- The three input blocks the body finds at point `t`, at their literal shapes. -/
abbrev xblk (c : Dev nD) (t : Fin cfg0.N) : Vec F S256x2048 .f32 := iblk m c 0 t
abbrev wblk (c : Dev nD) (t : Fin cfg0.N) : Vec F S2048x2048 .f32 := iblk m c 1 t
abbrev bblk (c : Dev nD) (t : Fin cfg0.N) : Vec F S1x2048 .f32 := iblk m c 2 t

/-- After a point where the conditional is taken, the scratch holds the narrowed copy of that point's weight block. -/
theorem scratchAt_A (c : Dev nD) (t : Fin cfg0.N) (h0 : t.val % 16 = 0) :
    (outsAt0 m c t.val t.isLt).2 = k0_pay1 (wblk m c t) := by
  rw [outsAt0_A m c t h0]; dsimp only
  exact scratch_A (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)

/-- After any other point it holds what the point before left. -/
theorem scratchAt_B (c : Dev nD) (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]; dsimp only [sout0_B_0]

/-- The output block after a point where the conditional is taken. -/
theorem outAt_A (c : Dev nD) (t : Fin cfg0.N) (h0 : t.val % 16 = 0) :
    (outsAt0 m c t.val t.isLt).1 = k0_pay2 (xblk m c t) (k0_pay1 (wblk m c t)) (bblk m c t) := by
  rw [outsAt0_A m c t h0]; dsimp only
  exact out_A (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)

/-- The output block after any other point. -/
theorem outAt_B (c : Dev nD) (t : Fin cfg0.N) (h0 : ¬t.val % 16 = 0) :
    (outsAt0 m c t.val t.isLt).1
      = k0_pay2 (xblk m c t) (outsAt0 m c (t.val - 1) (Nat.lt_of_le_of_lt (Nat.sub_le _ _) t.isLt)).2 (bblk m c t) := by
  rw [outsAt0_B m c t h0]; dsimp only
  exact out_B (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
    (outsAt0 m c (t.val - 1) (Nat.lt_of_le_of_lt (Nat.sub_le _ _) t.isLt)).2

end Cert.KernelIdeal.Linear

end
-- ==== Proof.BlockValue.lean ====
/-
  What the kernel body computes at one grid point, read at an index, over the extended reals.

  The body holds a block of 256 rows of x, a copy of the whole weight (kept in a scratch buffer in a
  narrower float format, which over the extended reals is the same array), and the bias as a 1 × 2048
  row.  It stores  matmul(block, weight copy) + broadcast(bias row).  The matrix product contracts the
  SECOND axis of both operands, so entry (p, q) of the stored block is the inner product of row p of
  the block with row q of the weight copy, plus entry q of the bias row.  The change of float format
  before the product is the identity over the extended reals, and the accumulator is the zero block.
-/
import proofs.«422237_j16844861735162_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Linear

open Cert.KernelIdeal Cert.KernelIdeal.Gen Idealize.ShloMosaic Idealize.ShloMosaic.ValueIdx

/-! ## The operand indices of the block's matrix product -/

/-- The left operand is read on the output's row … -/
theorem lhs_blockdot_0 (i : S256x2048.Idx) (q : dot_S256x2048_S2048x2048_S256x2048_1_1_0_0_n_n.contr.Idx) :
    (dot_S256x2048_S2048x2048_S256x2048_1_1_0_0_n_n.lhsIdx i q 0).val = (i 0).val := by
  unfold DotDims.lhsIdx
  rw [dif_neg (show ¬(0 : Fin S256x2048.rank) ∈ dot_S256x2048_S2048x2048_S256x2048_1_1_0_0_n_n.lhsBatch by decide), dif_pos (show (0 : Fin S256x2048.rank) ∈ dot_S256x2048_S2048x2048_S256x2048_1_1_0_0_n_n.lhsNonContracting by decide)]
  rfl
/-- … at the contraction coordinate; -/
theorem lhs_blockdot_1 (i : S256x2048.Idx) (q : dot_S256x2048_S2048x2048_S256x2048_1_1_0_0_n_n.contr.Idx) :
    (dot_S256x2048_S2048x2048_S256x2048_1_1_0_0_n_n.lhsIdx i q 1).val = (q ⟨0, by decide⟩).val :=
  dot_S256x2048_S2048x2048_S256x2048_1_1_0_0_n_n.lhsIdx_val_of_single rfl i q
/-- the right operand on the row named by the output's COLUMN … -/
theorem rhs_blockdot_0 (i : S256x2048.Idx) (q : dot_S256x2048_S2048x2048_S256x2048_1_1_0_0_n_n.contr.Idx) :
    (dot_S256x2048_S2048x2048_S256x2048_1_1_0_0_n_n.rhsIdx i q 0).val = (i 1).val := by
  unfold DotDims.rhsIdx
  rw [dif_neg (show ¬(0 : Fin S2048x2048.rank) ∈ dot_S256x2048_S2048x2048_S256x2048_1_1_0_0_n_n.rhsBatch by decide), dif_pos (show (0 : Fin S2048x2048.rank) ∈ dot_S256x2048_S2048x2048_S256x2048_1_1_0_0_n_n.rhsNonContracting by decide)]
  rfl
/-- … at the contraction coordinate too: both operands are contracted along their second axis. -/
theorem rhs_blockdot_1 (i : S256x2048.Idx) (q : dot_S256x2048_S2048x2048_S256x2048_1_1_0_0_n_n.contr.Idx) :
    (dot_S256x2048_S2048x2048_S256x2048_1_1_0_0_n_n.rhsIdx i q 1).val = (q ⟨0, by decide⟩).val :=
  dot_S256x2048_S2048x2048_S256x2048_1_1_0_0_n_n.rhsIdx_val_of_single rfl i q

/-- The block's matrix product into the zero accumulator, at entry (p, q): the inner product of row p of the left
    operand with row q of the right one. -/
theorem blockdot_apply (a : FVec Ideal S256x2048 .bf16) (w : FVec Ideal S2048x2048 .bf16) (p : Fin 256) (q : Fin 2048) :
    matmul dot_S256x2048_S2048x2048_S256x2048_1_1_0_0_n_n none a w (constant S256x2048 .f32 0x00000000#32) (ix2 p q)
      = ∑ k : Fin 2048, a (ix2 p k) * w (ix2 q k) := by
  simp only [matmul]
  rw [Ideal.matmul_constant_zero_apply, ← Equiv.sum_comp (ValueIdx.contrEquiv1 dot_S256x2048_S2048x2048_S256x2048_1_1_0_0_n_n 2048 rfl rfl).symm]
  refine Finset.sum_congr rfl fun k _ => ?_
  have hk := ValueIdx.contrEquiv1_symm_val dot_S256x2048_S2048x2048_S256x2048_1_1_0_0_n_n 2048 rfl rfl k
  have el : dot_S256x2048_S2048x2048_S256x2048_1_1_0_0_n_n.lhsIdx (ix2 p q) ((ValueIdx.contrEquiv1 dot_S256x2048_S2048x2048_S256x2048_1_1_0_0_n_n 2048 rfl rfl).symm k) = ix2 p k := funext fun a => Fin.ext (by
    match a with
    | ⟨0, _⟩ => exact lhs_blockdot_0 _ _
    | ⟨1, _⟩ => exact (lhs_blockdot_1 _ _).trans hk)
  have er : dot_S256x2048_S2048x2048_S256x2048_1_1_0_0_n_n.rhsIdx (ix2 p q) ((ValueIdx.contrEquiv1 dot_S256x2048_S2048x2048_S256x2048_1_1_0_0_n_n 2048 rfl rfl).symm k) = ix2 q k := funext fun a => Fin.ext (by
    match a with
    | ⟨0, _⟩ => exact rhs_blockdot_0 _ _
    | ⟨1, _⟩ => exact (rhs_blockdot_1 _ _).trans hk)
  rw [el, er]

/-! ## The two payloads -/

/-- What the body keeps in the scratch buffer: the weight block in the narrower format — over the extended reals the
    weight block itself, entry by entry. -/
theorem weightCopy_apply (w : Vec Ideal S2048x2048 .f32) (j : S2048x2048.Idx) : k0_pay1 (F := Ideal) w j = w j := by
  unfold k0_pay1
  rw [shapeCast_self]
  rfl

/-- What the body stores into the output block, at entry (p, q): the inner product of row p of the x block with row q
    of the weight copy, plus entry q of the bias row. -/
theorem outBlock_apply (xb : Vec Ideal S256x2048 .f32) (wc : Vec Ideal S2048x2048 .bf16) (br : Vec Ideal S1x2048 .f32)
    (p : Fin 256) (q : Fin 2048) :
    k0_pay2 (F := Ideal) xb wc br (ix2 p q) = (∑ k : Fin 2048, xb (ix2 p k) * wc (ix2 q k)) + br (ix2 (0 : Fin 1) q) := by
  unfold k0_pay2
  rw [shapeCast_self]
  refine (addf_apply _ _ _).trans ?_
  rw [blockdot_apply, broadcastTo_apply br broadcasts_S1x2048_S256x2048 (ix2 p q) (ix2 (0 : Fin 1) q) (fun a => by
    match a with
    | ⟨0, _⟩ => rfl
    | ⟨1, _⟩ => rfl)]
  rfl

end Cert.KernelIdeal.Linear

end
-- ==== Proof.LinearSpec.lean ====
/-
  The function both programs compute, stated once, index by index, over the literal shapes:
  a dense layer  out[b, o] = (∑ k, x[b, k] · w[o, k]) + bias[o]  with x of 8192 rows and 2048 columns,
  w of 2048 rows (one per output feature) and 2048 columns, bias of 2048 entries.
  The weight is contracted along ITS SECOND axis (it is stored output-feature-major), so no
  transpose appears: row b of x is paired with row o of w.  Everything is over the extended reals; the
  only operations are a finite sum of products and one addition, so no finiteness is needed anywhere.
-/
import Idealize.ShloMosaic.PureOps.Ideal
import Idealize.ShloMosaic.Lib.ValueIdx

noncomputable section

namespace Cert.LinearSpec

open Idealize.ShloMosaic Idealize.ShloMosaic.ValueIdx

/-- The dense layer at one output index: the inner product of row `i 0` of `x` with row `i 1` of `w`,
    plus entry `i 1` of the bias. -/
def linear (x : FVec Ideal ⟨2, ![8192, 2048]⟩ .f32) (w : FVec Ideal ⟨2, ![2048, 2048]⟩ .f32)
    (b : FVec Ideal ⟨1, ![2048]⟩ .f32) : FVec Ideal ⟨2, ![8192, 2048]⟩ .f32 :=
  fun i => (∑ k : Fin 2048, x (ix2 (i 0) k) * w (ix2 (i 1) k)) + b (ix1 (i 1))

/-- The same read at explicit coordinates. -/
theorem linear_apply (x : FVec Ideal ⟨2, ![8192, 2048]⟩ .f32) (w : FVec Ideal ⟨2, ![2048, 2048]⟩ .f32)
    (b : FVec Ideal ⟨1, ![2048]⟩ .f32) (r : Fin 8192) (o : Fin 2048) :
    linear x w b (ix2 r o) = (∑ k : Fin 2048, x (ix2 r k) * w (ix2 o k)) + b (ix1 o) := rfl

end Cert.LinearSpec

end
-- ==== Proof.KernelValue.lean ====
/-
  The kernel's result array, over the extended reals, is the dense layer of the specification.

  The grid has 32 points, two runs of 16.  Point t stages rows 256·t … 256·t + 255 of x, the whole weight, and the
  bias (reshaped on the host to one row) — the weight's and the bias's block index never moves.  The scratch
  buffer is refilled with the weight at the first point of each run of 16 and is carried, untouched, through the
  other fifteen; so after EVERY point it holds the weight (induction on the point: a refill point writes it, any
  other point keeps what the point before left).  Hence at every point the stored output block is, at entry
  (p, q), the inner product of row 256·t + p of x with row q of the weight, plus bias q: block t of the
  specification's array.  The 32 output blocks are written back at every point and tile the 8192 rows (row r lies
  in the block of point r / 256), so the whole array ends at the specification.
-/
import proofs.«422237_j16844861735162_3_alg».proof.Proof.Pieces
import proofs.«422237_j16844861735162_3_alg».proof.Proof.BlockValue
import proofs.«422237_j16844861735162_3_alg».proof.Proof.LinearSpec
import Idealize.ShloMosaic.Lib.StableHlo.Run

noncomputable section

namespace Cert.KernelIdeal.Linear

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## Where each window's block sits -/

/-- The block index of x and of the output is the point's position in the grid (16 · core + step), on the row axis; the
    weight's and the bias row's never move. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three argument arrays as launched. -/
abbrev xarr (c : Dev nD) : FVec Ideal S8192x2048 .f32 := m ((c : Thread nD τ).loc main_arg0)
abbrev warr (c : Dev nD) : FVec Ideal S2048x2048 .f32 := m ((c : Thread nD τ).loc main_arg1)
abbrev barr (c : Dev nD) : FVec Ideal S2048 .f32 := m ((c : Thread nD τ).loc main_arg2)

/-- Entry (p, k) of the x block at point t is entry (256·t + p, k) of x. -/
theorem xblk_apply (c : Dev nD) (t : Fin cfg0.N) (p : Fin 256) (k : Fin 2048) (r : Fin 8192) (hr : r.val = t.val * 256 + p.val) :
    xblk m c t (ix2 p k) = xarr m c (ix2 r k) := by
  obtain ⟨e0, e1, -⟩ := block_index t
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = r.val; omega
  | ⟨1, _⟩ => show win0_0.index t (1 : Fin 2) * 2048 + 1 * k.val = k.val; omega

/-- The weight block at any point is the whole weight. -/
theorem wblk_apply (c : Dev nD) (t : Fin cfg0.N) (j : S2048x2048.Idx) : wblk m c t j = warr m c j := by
  obtain ⟨-, -, e0, e1, -⟩ := block_index t
  show V m c main_arg1 (((cfg0.win 1).blk t).view.emb j) = _
  rw [V_main_arg1]
  refine congrArg _ (funext fun a => Fin.ext ?_)
  match a with
  | ⟨0, _⟩ => show win0_1.index t (0 : Fin 2) * 2048 + 1 * (j 0).val = (j 0).val; omega
  | ⟨1, _⟩ => show win0_1.index t (1 : Fin 2) * 2048 + 1 * (j 1).val = (j 1).val; omega

/-- The one host operation before the region reshapes the bias to a single row. -/
theorem biasRow_eq (c : Dev nD) :
    (V m c main_v0 : S1x2048.Idx → EReal) = shapeCast S1x2048 (barr m c) shapeCasts_S2048_S1x2048 := by
  dsimp only [Gen.V, Gen.hostOps0]; after_results; rfl

/-- Entry (0, q) of the bias row at any point is entry q of the bias. -/
theorem bblk_apply (c : Dev nD) (t : Fin cfg0.N) (q : Fin 2048) : bblk m c t (ix2 (0 : Fin 1) q) = barr m c (ix1 q) := by
  obtain ⟨-, -, -, -, e0, e1, -⟩ := block_index t
  show V m c main_v0 (((cfg0.win 2).blk t).view.emb (ix2 (0 : Fin 1) q)) = _
  rw [biasRow_eq]
  refine shapeCast_apply _ _ _ _ ?_
  rw [Shape.rowMajor_val_one, Shape.rowMajor_val_two]
  show q.val = (win0_2.index t (0 : Fin 2) * 1 + 1 * 0) * 2048 + (win0_2.index t (1 : Fin 2) * 2048 + 1 * q.val)
  omega

/-! ## The scratch holds the weight after every point -/

/-- The weight, as contents of the scratch buffer. -/
abbrev wcopy (c : Dev nD) : Vec Ideal S2048x2048 .bf16 := fun j => warr m c j

/-- What a refill stores is the weight. -/
theorem refill_eq (c : Dev nD) (t : Fin cfg0.N) : k0_pay1 (F := Ideal) (wblk m c t) = wcopy m c :=
  funext fun j => (weightCopy_apply (wblk m c t) j).trans (wblk_apply m c t j)

/-- After every point the scratch holds the weight: a refill point writes it, any other keeps what the point before left. -/
theorem scratch_eq (c : Dev nD) : ∀ (n : ℕ) (hn : n < cfg0.N), (outsAt0 m c n hn).2 = wcopy m c
  | 0, hn => (scratchAt_A m c ⟨0, hn⟩ rfl).trans (refill_eq m c _)
  | n + 1, hn => by
    by_cases h0 : (n + 1) % 16 = 0
    · exact (scratchAt_A m c ⟨n + 1, hn⟩ h0).trans (refill_eq m c _)
    · exact (scratchAt_B m c ⟨n + 1, hn⟩ h0).trans (scratch_eq c n _)

/-- So at every point the stored output block is the body's product-plus-bias of the x block, the weight and the bias row. -/
theorem out_eq (c : Dev nD) (t : Fin cfg0.N) :
    (outsAt0 m c t.val t.isLt).1 = k0_pay2 (xblk m c t) (wcopy m c) (bblk m c t) := by
  by_cases h0 : t.val % 16 = 0
  · rw [outAt_A m c t h0, refill_eq]
  · rw [outAt_B m c t h0, scratch_eq]

/-! ## From blocks to the array -/

/-- The stored block at an entry, by its two coordinates. -/
theorem block_entry (xb : Vec Ideal S256x2048 .f32) (wc : Vec Ideal S2048x2048 .bf16) (br : Vec Ideal S1x2048 .f32)
    (j : S256x2048.Idx) :
    k0_pay2 (F := Ideal) xb wc br j = (∑ k : Fin 2048, xb (ix2 (j 0) k) * wc (ix2 (j 1) k)) + br (ix2 (0 : Fin 1) (j 1)) := by
  conv_lhs => rw [eq_ix2 j]
  exact outBlock_apply xb wc br (j 0) (j 1)

/-- The dense layer of the launched arguments, as contents of the result array. -/
abbrev result (c : Dev nD) : Buf (Elt Ideal) ((c : Thread nD τ).loc main_v1) :=
  Cert.LinearSpec.linear (xarr m c) (warr m c) (barr m c)

/-- The stored block at entry j is the dense layer at the array index i lying 256·t rows below it. -/
theorem block_is_layer (c : Dev nD) (t : Fin cfg0.N) (j : S256x2048.Idx) (i : S8192x2048.Idx)
    (h0 : (i 0).val = t.val * 256 + (j 0).val) (h1 : (i 1).val = (j 1).val) :
    k0_pay2 (F := Ideal) (xblk m c t) (wcopy m c) (bblk m c t) j = result m c i := by
  refine (block_entry _ _ _ j).trans ?_
  have e1 : i 1 = j 1 := Fin.ext h1
  show _ = (∑ k : Fin 2048, xarr m c (ix2 (i 0) k) * warr m c (ix2 (i 1) k)) + barr m c (ix1 (i 1))
  rw [e1]
  exact congrArg₂ (· + ·)
    (Finset.sum_congr rfl fun k _ => congrArg (· * warr m c (ix2 (j 1) k)) (xblk_apply m c t (j 0) k (i 0) h0))
    (bblk_apply m c t (j 1))

/-- What point t writes back is block t of the dense layer. -/
theorem flushed_eq (c : Dev nD) (t : Fin cfg0.N) :
    (dats m 0 c).flushed 3 t = ((cfg0.win 3).blk t).view.read (Elt Ideal) (result m c) := by
  rw [Value.flushed3, out_eq]
  obtain ⟨-, -, -, -, -, -, e0, e1⟩ := block_index t
  funext j
  exact block_is_layer m c t j (((cfg0.win 3).blk t).view.emb j)
    (by show win0_3.index t (0 : Fin 2) * 256 + 1 * (j 0).val = _; omega)
    (by show win0_3.index t (1 : Fin 2) * 2048 + 1 * (j 1).val = _; omega)

/-- An index of the result array is in point t's block iff each coordinate is in the block's range on its axis. -/
theorem mem_blk (t : Fin cfg0.N) (i : S8192x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v1).slice (win0_3.rect t)).set ↔ _
  rw [View.set_slice_whole, Rect.mem_set_unit]
  exact Iff.rfl

/-- The 32 blocks tile the array (row r is in the block of point r / 256), so it ends at the dense layer. -/
theorem final (c : Dev nD) : (dats m 0 c).arrAt 3 cfg0.N = result m c :=
  (dats m 0 c).arrAt_eq_of_cover 3 (result m c) (fun t _ => flushed_eq m c t) fun i => by
    have hi0 : (i 0).val < 8192 := (i 0).isLt
    have hi1 : (i 1).val < 2048 := (i 1).isLt
    have hN : cfg0.N = 32 := N_0
    have ht : (i 0).val / 256 < cfg0.N := by omega
    obtain ⟨-, -, -, -, -, -, e0, e1⟩ := block_index ⟨(i 0).val / 256, ht⟩
    refine ⟨⟨(i 0).val / 256, ht⟩, flush0_3 _, ?_⟩
    rw [mem_blk]
    intro a
    match a with
    | ⟨0, _⟩ =>
      show win0_3.index ⟨(i 0).val / 256, ht⟩ (0 : Fin 2) * 256 ≤ (i 0).val ∧ (i 0).val < win0_3.index ⟨(i 0).val / 256, ht⟩ (0 : Fin 2) * 256 + 256
      rw [e0]; show (i 0).val / 256 * 256 ≤ (i 0).val ∧ (i 0).val < (i 0).val / 256 * 256 + 256; omega
    | ⟨1, _⟩ =>
      show win0_3.index ⟨(i 0).val / 256, ht⟩ (1 : Fin 2) * 2048 ≤ (i 1).val ∧ (i 1).val < win0_3.index ⟨(i 0).val / 256, ht⟩ (1 : Fin 2) * 2048 + 2048
      rw [e1]; omega

/-- The kernel's run, read: the result array at the dense layer of the launched arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Linear

end
-- ==== Proof.RefIsLinear.lean ====
/-
  The reference, read at an index, is the dense layer of the specification: its dot_general contracts the second
  axis of x with the second axis of the weight, and its two broadcasts place entry o of the bias under column o.
-/
import proofs.«422237_j16844861735162_3_alg».proof.Proof.Gen.ReferenceIdeal.Read
import proofs.«422237_j16844861735162_3_alg».proof.Proof.LinearSpec

noncomputable section

namespace Cert.ReferenceIdeal.Linear

open Cert.ReferenceIdeal Cert.ReferenceIdeal.Read Idealize.ShloMosaic Idealize.ShloMosaic.ValueIdx

/-- The reference's last stage is `linear` of the three arguments. -/
theorem ref_eq_linear (x : FVec Ideal S8192x2048 .f32) (w : FVec Ideal S2048x2048 .f32) (b : FVec Ideal S2048 .f32) :
    val_main_v3 (F := Ideal) x w b = Cert.LinearSpec.linear x w b := by
  funext i
  have el : ∀ k : Fin 2048, lidx_main_v0 i k = ix2 (i 0) k := fun k => funext fun a => Fin.ext (by
    match a with | ⟨0, _⟩ => rfl | ⟨1, _⟩ => rfl)
  have er : ∀ k : Fin 2048, ridx_main_v0 i k = ix2 (i 1) k := fun k => funext fun a => Fin.ext (by
    match a with | ⟨0, _⟩ => rfl | ⟨1, _⟩ => rfl)
  have eb : idx_main_v1 (idx_main_v2 i) = ix1 (i 1) := funext fun a => Fin.ext (by
    match a with | ⟨0, _⟩ => rfl)
  rw [val_main_v3_apply, val_main_v0_apply, val_main_v2_apply, val_main_v1_apply]
  simp only [el, er, eb]
  rfl

end Cert.ReferenceIdeal.Linear

end
-- ==== Proof.lean ====
/-
  A dense layer computed block by block against one whole matrix product.

  Both programs map x (8192 × 2048), a weight w (2048 × 2048, one ROW per output feature) and a bias b (2048) to
      out[r, o] = (∑ k, x[r, k] · w[o, k]) + b[o].
  The reference does it in one `dot_general` contracting the second axis of x with the second axis of w, then adds
  the bias broadcast under every row.  The kernel walks 32 blocks of 256 rows of x in two runs of 16; at the first
  block of each run it copies the weight into a scratch buffer in a narrower float format, and at every block it
  multiplies the block (narrowed too) with the scratch, accumulating from zero, and adds the bias row.  Over the
  extended reals a change of float format is the identity, the product into a zero accumulator is the plain sum of
  products, and no regrouping of the sum takes place (each output entry is ONE inner product over the same 2048
  terms on both sides), so the two results agree entry by entry with no law beyond reading each side at an index —
  in particular nothing needs the inputs to be finite.

  How the pieces fit: the scratch holds the weight after every block (induction along the 32 blocks: a refill
  writes it, every other block keeps what the one before left), so every stored output block is the specification's
  block; the blocks tile the rows; the reference's stages read at an index give the same formula.  No operation
  was rewritten when the kernel was idealized, so the idealization is the kernel's own text and `preserves` is trivial; the three frames are the
  generated ones (the reference's is its generated run with the result dropped).
-/
import proofs.«422237_j16844861735162_3_alg».proof.Defs
import proofs.«422237_j16844861735162_3_alg».proof.Proof.Gen.Kernel
import proofs.«422237_j16844861735162_3_alg».proof.Proof.Gen.Kernel.Skeleton
import proofs.«422237_j16844861735162_3_alg».proof.Proof.Gen.Kernel.Launch
import proofs.«422237_j16844861735162_3_alg».proof.Proof.Gen.Kernel.Points
import proofs.«422237_j16844861735162_3_alg».proof.Proof.Gen.Kernel.Frame
import proofs.«422237_j16844861735162_3_alg».proof.Proof.Gen.KernelIdeal
import proofs.«422237_j16844861735162_3_alg».proof.Proof.Gen.KernelIdeal.Skeleton
import proofs.«422237_j16844861735162_3_alg».proof.Proof.Gen.KernelIdeal.Launch
import proofs.«422237_j16844861735162_3_alg».proof.Proof.Gen.KernelIdeal.Points
import proofs.«422237_j16844861735162_3_alg».proof.Proof.Gen.KernelIdeal.Frame
import proofs.«422237_j16844861735162_3_alg».proof.Proof.Gen.ReferenceIdeal
import proofs.«422237_j16844861735162_3_alg».proof.Proof.Gen.Pre_finite_inputs
import proofs.«422237_j16844861735162_3_alg».proof.Proof.Gen.KernelIdeal.Value
import proofs.«422237_j16844861735162_3_alg».proof.Proof.Gen.ReferenceIdeal.Run
import proofs.«422237_j16844861735162_3_alg».proof.Proof.Gen.ReferenceIdeal.Read
import proofs.«422237_j16844861735162_3_alg».proof.Proof.KernelValue
import proofs.«422237_j16844861735162_3_alg».proof.Proof.RefIsLinear
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of four host operations; its run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Over the extended reals both programs end with the dense layer of their (agreeing) arguments. -/
theorem algebraic : Cert.algebraic_KernelIdeal_ReferenceIdeal := by
  intro m ρ m' ρ' _ hagree
  refine ⟨fun c => Cert.KernelIdeal.Linear.result m c, Cert.KernelIdeal.Linear.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.Linear.ref_eq_linear,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
